-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S512x32 : Shape := ⟨2, ![512, 32]⟩
abbrev S1x512 : Shape := ⟨2, ![1, 512]⟩
abbrev S3x512 : Shape := ⟨2, ![3, 512]⟩
abbrev S3 : Shape := ⟨1, ![3]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S1x512 : S_.BroadcastsInDim S1x512 (![] : Fin 0 → Fin S1x512.rank)
  reducesTo_S1x512_S_d0_1 : S1x512.ReducesTo [0, 1] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S131072x32 .f32) (main_arg1 : FVec F S512x32 .f32) (main_arg2 : FVec F S1x512 .f32) (main_arg3 : FVec F S3x512 .f32) (main_arg4 : FVec F S3 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_v13 main_v16
-- ==== Kernel.lean ====
abbrev S131072x32 : Shape := ⟨2, ![131072, 32]⟩
abbrev S512x32 : Shape := ⟨2, ![512, 32]⟩
abbrev S1x512 : Shape := ⟨2, ![1, 512]⟩
abbrev S3x512 : Shape := ⟨2, ![3, 512]⟩
abbrev S3 : Shape := ⟨1, ![3]⟩
abbrev S1x3 : Shape := ⟨2, ![1, 3]⟩
abbrev S131072x3 : Shape := ⟨2, ![131072, 3]⟩
abbrev S2048x32 : Shape := ⟨2, ![2048, 32]⟩
abbrev S2048x3 : Shape := ⟨2, ![2048, 3]⟩
abbrev S2048 : Shape := ⟨1, ![2048]⟩
abbrev S2048x1 : Shape := ⟨2, ![2048, 1]⟩
abbrev S512 : Shape := ⟨1, ![512]⟩
abbrev S32x512 : Shape := ⟨2, ![32, 512]⟩
abbrev S2048x512 : Shape := ⟨2, ![2048, 512]⟩
abbrev S512x3 : Shape := ⟨2, ![512, 3]⟩

abbrev nBuf : Space → Nat
  | .hbm => 7
  | .vmem => 8
  | .smem => 0
  | _ => 0

abbrev bufTy : (tb : Table) → Fin (tcTables nBuf tb) → BufTy
  | .hbm, ⟨0, _⟩ => ⟨S131072x32, .f32⟩
  | .hbm, ⟨1, _⟩ => ⟨S512x32, .f32⟩
  | .hbm, ⟨2, _⟩ => ⟨S1x512, .f32⟩
  | .hbm, ⟨3, _⟩ => ⟨S3x512, .f32⟩
  | .hbm, ⟨4, _⟩ => ⟨S3, .f32⟩
  | .hbm, ⟨5, _⟩ => ⟨S1x3, .f32⟩
  | .hbm, ⟨6, _⟩ => ⟨S131072x3, .f32⟩
  | .local _ .vmem, ⟨0, _⟩ => ⟨S2048x32, .f32⟩
  | .local _ .vmem, ⟨1, _⟩ => ⟨S2048x32, .f32⟩
  | .local _ .vmem, ⟨2, _⟩ => ⟨S512x32, .f32⟩
  | .local _ .vmem, ⟨3, _⟩ => ⟨S1x512, .f32⟩
  | .local _ .vmem, ⟨4, _⟩ => ⟨S3x512, .f32⟩
  | .local _ .vmem, ⟨5, _⟩ => ⟨S1x3, .f32⟩
  | .local _ .vmem, ⟨6, _⟩ => ⟨S2048x3, .f32⟩
  | .local _ .vmem, ⟨7, _⟩ => ⟨S2048x3, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S3_S1x3 : S3.ShapeCasts S1x3
  inb_S2048x32_S2048x32_0_0 : ∀ a, (![0, 0] : Fin 2 → Nat) a + S2048x32.size a ≤ S2048x32.size a
  h_S2048x32 : 0 < S2048x32.numel
  inb_S512x32_S512x32_0_0 : ∀ a, (![0, 0] : Fin 2 → Nat) a + S512x32.size a ≤ S512x32.size a
  h_S512x32 : 0 < S512x32.numel
  reduces_S2048x32_S2048 : S2048x32.Reduces [1] S2048
  shapeCasts_S2048_S2048x1 : S2048.ShapeCasts S2048x1
  reduces_S512x32_S512 : S512x32.Reduces [1] S512
  shapeCasts_S512_S1x512 : S512.ShapeCasts S1x512
  bitsLt_bf16_f32 : FTy.bits .bf16 < FTy.bits .f32
  transposes_S512x32_p1_0_S32x512 : S512x32.Transposes [1, 0] S32x512
  broadcasts_S2048x1_S2048x512 : S2048x1.Broadcasts S2048x512
  broadcasts_S1x512_S2048x512 : S1x512.Broadcasts S2048x512
  inb_S1x512_S1x512_0_0 : ∀ a, (![0, 0] : Fin 2 → Nat) a + S1x512.size a ≤ S1x512.size a
  h_S1x512 : 0 < S1x512.numel
  inb_S3x512_S3x512_0_0 : ∀ a, (![0, 0] : Fin 2 → Nat) a + S3x512.size a ≤ S3x512.size a
  h_S3x512 : 0 < S3x512.numel
  transposes_S3x512_p1_0_S512x3 : S3x512.Transposes [1, 0] S512x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  dot_S2048x32_S32x512_S2048x512_1_0_0_1_n_n_wf : DotDims.WF S2048x32 S32x512 S2048x512 [1] [0] [0] [1] [] []
  dot_S2048x512_S512x3_S2048x3_1_0_0_1_n_n_wf : DotDims.WF S2048x512 S512x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S131072x32.size a
  hwx0_0 : ∀ i : grid0.Coords, EltTy.bits .f32 = 32 ∨ (Rect.block (s := S131072x32) S2048x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x512.size a ≤ S3x512.size a
  hwx0_3 : ∀ i : grid0.Coords, EltTy.bits .f32 = 32 ∨ (Rect.block (s := S3x512) S3x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x3.size a ≤ S131072x3.size a
  hwx0_5 : ∀ i : grid0.Coords, EltTy.bits .f32 = 32 ∨ (Rect.block (s := S131072x3) S2048x3.size (cc0_transform_5 i) (hinb0_5 i)).WholeWords (EltTy.packing .f32)

variable [Facts₀]

def dot_S2048x32_S32x512_S2048x512_1_0_0_1_n_n : DotDims S2048x32 S32x512 S2048x512 where
  lhsContracting := [1]
  rhsContracting := [0]
  lhsNonContracting := [0]
  rhsNonContracting := [1]
  lhsBatch := []
  rhsBatch := []
  wf := dot_S2048x32_S32x512_S2048x512_1_0_0_1_n_n_wf
def dot_S2048x512_S512x3_S2048x3_1_0_0_1_n_n : DotDims S2048x512 S512x3 S2048x3 where
  lhsContracting := [1]
  rhsContracting := [0]
  lhsNonContracting := [0]
  rhsNonContracting := [1]
  lhsBatch := []
  rhsBatch := []
  wf := dot_S2048x512_S512x3_S2048x3_1_0_0_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x32 : Shape := ⟨2, ![131072, 32]⟩
abbrev S512x32 : Shape := ⟨2, ![512, 32]⟩
abbrev S1x512 : Shape := ⟨2, ![1, 512]⟩
abbrev S3x512 : Shape := ⟨2, ![3, 512]⟩
abbrev S3 : Shape := ⟨1, ![3]⟩
abbrev S_ : Shape := ⟨0, ![]⟩
abbrev S131072 : Shape := ⟨1, ![131072]⟩
abbrev S131072x1 : Shape := ⟨2, ![131072, 1]⟩
abbrev S512 : Shape := ⟨1, ![512]⟩
abbrev S32x512 : Shape := ⟨2, ![32, 512]⟩
abbrev S131072x512 : Shape := ⟨2, ![131072, 512]⟩
abbrev S512x3 : Shape := ⟨2, ![512, 3]⟩
abbrev S131072x3 : Shape := ⟨2, ![131072, 3]⟩
abbrev S1x3 : Shape := ⟨2, ![1, 3]⟩

abbrev nBuf : Space → Nat
  | .hbm => 32
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S512x32, .f32⟩
  | .hbm, ⟨2, _⟩ => ⟨S1x512, .f32⟩
  | .hbm, ⟨3, _⟩ => ⟨S3x512, .f32⟩
  | .hbm, ⟨4, _⟩ => ⟨S3, .f32⟩
  | .hbm, ⟨5, _⟩ => ⟨S131072x32, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S512x32, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S32x512, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S1x512, .f32⟩
  | .hbm, ⟨24, _⟩ => ⟨S131072x512, .f32⟩
  | .hbm, ⟨25, _⟩ => ⟨S131072x512, .f32⟩
  | .hbm, ⟨26, _⟩ => ⟨S131072x512, .f32⟩
  | .hbm, ⟨27, _⟩ => ⟨S512x3, .f32⟩
  | .hbm, ⟨28, _⟩ => ⟨S131072x3, .f32⟩
  | .hbm, ⟨29, _⟩ => ⟨S1x3, .f32⟩
  | .hbm, ⟨30, _⟩ => ⟨S131072x3, .f32⟩
  | .hbm, ⟨31, _⟩ => ⟨S131072x3, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S131072x32_S131072_d1 : S131072x32.ReducesTo [1] S131072
  h_S_ : 0 < S_.numel
  bcast_S131072_S131072x1_0 : S131072.BroadcastsInDim S131072x1 (![0] : Fin 1 → Fin S131072x1.rank)
  reducesTo_S512x32_S512_d1 : S512x32.ReducesTo [1] S512
  bcast_S512_S1x512_1 : S512.BroadcastsInDim S1x512 (![1] : Fin 1 → Fin S1x512.rank)
  transposes_S512x32_S32x512_1_0 : S512x32.Transposes [1, 0] S32x512
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  transposes_S3x512_S512x3_1_0 : S3x512.Transposes [1, 0] S512x3
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  dot_S131072x32_S32x512_S131072x512_1_0_0_1_n_n_wf : DotDims.WF S131072x32 S32x512 S131072x512 [1] [0] [0] [1] [] []
  dot_S131072x512_S512x3_S131072x3_1_0_0_1_n_n_wf : DotDims.WF S131072x512 S512x3 S131072x3 [1] [0] [0] [1] [] []

variable [Facts₀]

def dot_S131072x32_S32x512_S131072x512_1_0_0_1_n_n : DotDims S131072x32 S32x512 S131072x512 where
  lhsContracting := [1]
  rhsContracting := [0]
  lhsNonContracting := [0]
  rhsNonContracting := [1]
  lhsBatch := []
  rhsBatch := []
  wf := dot_S131072x32_S32x512_S131072x512_1_0_0_1_n_n_wf
def dot_S131072x512_S512x3_S131072x3_1_0_0_1_n_n : DotDims S131072x512 S512x3 S131072x3 where
  lhsContracting := [1]
  rhsContracting := [0]
  lhsNonContracting := [0]
  rhsNonContracting := [1]
  lhsBatch := []
  rhsBatch := []
  wf := dot_S131072x512_S512x3_S131072x3_1_0_0_1_n_n_wf

class Facts : Prop extends Facts₀ where

variable [Facts]
-- ==== Proof.RbfSpec.lean ====
/-
  A radial-basis-function layer with a linear read-out, as a function on the extended reals.

  An input row `x ∈ ℝ³²` is compared with 512 centres `c_k ∈ ℝ³²`. The squared distance is taken in its
  expanded form `|x|² + |c_k|² - 2·⟨x, c_k⟩`; hidden unit `k` answers `exp(-dist²_k / σ_k²)`, and output `j` is
  `∑_k hidden_k · W[j,k] + b[j]`. Nothing here is simplified: the three sums stay separate, the factor two is
  the float word of 2.0 left unevaluated, and the quotient is the extended reals' total division, so that two
  programs that compute this expression operation by operation meet it without any algebra on infinities.
-/
import Idealize.ShloMosaic.PureOps.Ideal.Laws
import Idealize.ShloMosaic.Lib.ValueIdx

noncomputable section

namespace RbfLayer

open Idealize.ShloMosaic Idealize.ShloMosaic.ValueIdx

/-- The float word of `2.0`, read at the ideal values and never evaluated: both programs carry the same word. -/
abbrev two : EReal := Ideal.ofBits .f32 0x40000000#32

/-- The expanded squared distance `|xr|² + |cr|² - 2·⟨xr, cr⟩` between a row and a centre. -/
def dist2 (xr cr : Fin 32 → EReal) : EReal :=
  ((∑ q : Fin 32, xr q * xr q) + ∑ q : Fin 32, cr q * cr q) - two * ∑ q : Fin 32, xr q * cr q

/-- The hidden unit with centre `cr` and width `σ` answers the row `xr` with `exp(-dist² / σ²)`. -/
def hidden (xr cr : Fin 32 → EReal) (σ : EReal) : EReal :=
  Ideal.exp (Ideal.div (-dist2 xr cr) (σ * σ))

/-- One output of the layer for one row: the hidden units' answers weighted by `wr`, plus the bias `β`. -/
def out (xr : Fin 32 → EReal) (c : Fin 512 → Fin 32 → EReal) (σ wr : Fin 512 → EReal) (β : EReal) : EReal :=
  (∑ k : Fin 512, hidden xr (c k) (σ k) * wr k) + β

/-- The layer over `n` rows: entry `(r, j)` is output `j` for row `r` of `X`; the centres are the rows of `C`,
    the widths the one row of `S`, the read-out weights row `j` of `W`, the bias `β j`. -/
def layer {n : ℕ} (X : (⟨2, ![n, 32]⟩ : Shape).Idx → EReal) (C : (⟨2, ![512, 32]⟩ : Shape).Idx → EReal)
    (S : (⟨2, ![1, 512]⟩ : Shape).Idx → EReal) (W : (⟨2, ![3, 512]⟩ : Shape).Idx → EReal) (β : Fin 3 → EReal) :
    (⟨2, ![n, 3]⟩ : Shape).Idx → EReal :=
  fun i => out (fun q => X (ix2 (i 0) q)) (fun k q => C (ix2 k q)) (fun k => S (ix2 (0 : Fin 1) k))
    (fun k => W (ix2 (i 1) k)) (β (i 1))

/-- The layer at coordinates. -/
theorem layer_ix2 {n : ℕ} (X : (⟨2, ![n, 32]⟩ : Shape).Idx → EReal) (C : (⟨2, ![512, 32]⟩ : Shape).Idx → EReal)
    (S : (⟨2, ![1, 512]⟩ : Shape).Idx → EReal) (W : (⟨2, ![3, 512]⟩ : Shape).Idx → EReal) (β : Fin 3 → EReal)
    (r : Fin n) (j : Fin 3) :
    layer X C S W β (ix2 r j) = out (fun q => X (ix2 r q)) (fun k q => C (ix2 k q)) (fun k => S (ix2 (0 : Fin 1) k))
      (fun k => W (ix2 j k)) (β j) := rfl

/-- Subtracting from the float zero is negation: `0 - a = -a` on the extended reals, infinities included. -/
theorem zero_word_sub (a : EReal) : Ideal.ofBits .f32 0x00000000#32 - a = -a := by
  rw [Ideal.ofBits_zero_f32, zero_sub]

/-- A sum started from the float zero is the sum. -/
theorem zero_word_add (a : EReal) : Ideal.ofBits .f32 0x00000000#32 + a = a := by
  rw [Ideal.ofBits_zero_f32, zero_add]

end RbfLayer

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.RbfBody.lean ====
/-
  What one grid point's body computes, entry by entry.

  The body holds a block of 2048 input rows `x`, all 512 centres `c`, the widths `s`, the read-out weights `w` and
  the bias `b`. Read at the ideal values (a change of float format is the identity, a matrix product into a zero
  accumulator is the plain sum of products, a lane reduction from the zero word is the plain sum) its stored
  value at row `p`, column `j` is `RbfLayer.out` of row `p` of the block: the row norm `∑_q x[p,q]²` is kept as a
  column and broadcast along the centres, the centre norm `∑_q c[k,q]²` as a row broadcast along the rows, the
  cross term is `x · cᵀ`, the negation is a subtraction from the zero word, and the read-out is `h · wᵀ` plus the
  bias row broadcast along the rows.
-/
import proofs.«102401_j11484742549553_1_alg».proof.Proof.Gen.KernelIdeal.Skeleton
import proofs.«102401_j11484742549553_1_alg».proof.Proof.RbfSpec
import proofs.«102401_j11484742549553_1_alg».proof.Proof.LibKeepdims
import Idealize.ShloMosaic.Lib.ValueLayout
import Idealize.ShloMosaic.PureOps.Ideal.Laws

noncomputable section

namespace Cert.KernelIdeal.RbfBody

open Cert.KernelIdeal Cert.KernelIdeal.Gen Idealize.ShloMosaic Idealize.ShloMosaic.ValueIdx

/-! ## The two matrix products' operand indices -/

theorem cross_lhs_0 (i : S2048x512.Idx) (q : dot_S2048x32_S32x512_S2048x512_1_0_0_1_n_n.contr.Idx) :
    (dot_S2048x32_S32x512_S2048x512_1_0_0_1_n_n.lhsIdx i q 0).val = (i 0).val := by
  unfold DotDims.lhsIdx
  rw [dif_neg (show ¬(0 : Fin S2048x32.rank) ∈ dot_S2048x32_S32x512_S2048x512_1_0_0_1_n_n.lhsBatch by decide), dif_pos (show (0 : Fin S2048x32.rank) ∈ dot_S2048x32_S32x512_S2048x512_1_0_0_1_n_n.lhsNonContracting by decide)]
  rfl
theorem cross_lhs_1 (i : S2048x512.Idx) (q : dot_S2048x32_S32x512_S2048x512_1_0_0_1_n_n.contr.Idx) :
    (dot_S2048x32_S32x512_S2048x512_1_0_0_1_n_n.lhsIdx i q 1).val = (q ⟨0, by decide⟩).val :=
  dot_S2048x32_S32x512_S2048x512_1_0_0_1_n_n.lhsIdx_val_of_single rfl i q
theorem cross_rhs_0 (i : S2048x512.Idx) (q : dot_S2048x32_S32x512_S2048x512_1_0_0_1_n_n.contr.Idx) :
    (dot_S2048x32_S32x512_S2048x512_1_0_0_1_n_n.rhsIdx i q 0).val = (q ⟨0, by decide⟩).val :=
  dot_S2048x32_S32x512_S2048x512_1_0_0_1_n_n.rhsIdx_val_of_single rfl i q
theorem cross_rhs_1 (i : S2048x512.Idx) (q : dot_S2048x32_S32x512_S2048x512_1_0_0_1_n_n.contr.Idx) :
    (dot_S2048x32_S32x512_S2048x512_1_0_0_1_n_n.rhsIdx i q 1).val = (i 1).val := by
  unfold DotDims.rhsIdx
  rw [dif_neg (show ¬(1 : Fin S32x512.rank) ∈ dot_S2048x32_S32x512_S2048x512_1_0_0_1_n_n.rhsBatch by decide), dif_pos (show (1 : Fin S32x512.rank) ∈ dot_S2048x32_S32x512_S2048x512_1_0_0_1_n_n.rhsNonContracting by decide)]
  rfl

theorem read_lhs_0 (i : S2048x3.Idx) (q : dot_S2048x512_S512x3_S2048x3_1_0_0_1_n_n.contr.Idx) :
    (dot_S2048x512_S512x3_S2048x3_1_0_0_1_n_n.lhsIdx i q 0).val = (i 0).val := by
  unfold DotDims.lhsIdx
  rw [dif_neg (show ¬(0 : Fin S2048x512.rank) ∈ dot_S2048x512_S512x3_S2048x3_1_0_0_1_n_n.lhsBatch by decide), dif_pos (show (0 : Fin S2048x512.rank) ∈ dot_S2048x512_S512x3_S2048x3_1_0_0_1_n_n.lhsNonContracting by decide)]
  rfl
theorem read_lhs_1 (i : S2048x3.Idx) (q : dot_S2048x512_S512x3_S2048x3_1_0_0_1_n_n.contr.Idx) :
    (dot_S2048x512_S512x3_S2048x3_1_0_0_1_n_n.lhsIdx i q 1).val = (q ⟨0, by decide⟩).val :=
  dot_S2048x512_S512x3_S2048x3_1_0_0_1_n_n.lhsIdx_val_of_single rfl i q
theorem read_rhs_0 (i : S2048x3.Idx) (q : dot_S2048x512_S512x3_S2048x3_1_0_0_1_n_n.contr.Idx) :
    (dot_S2048x512_S512x3_S2048x3_1_0_0_1_n_n.rhsIdx i q 0).val = (q ⟨0, by decide⟩).val :=
  dot_S2048x512_S512x3_S2048x3_1_0_0_1_n_n.rhsIdx_val_of_single rfl i q
theorem read_rhs_1 (i : S2048x3.Idx) (q : dot_S2048x512_S512x3_S2048x3_1_0_0_1_n_n.contr.Idx) :
    (dot_S2048x512_S512x3_S2048x3_1_0_0_1_n_n.rhsIdx i q 1).val = (i 1).val := by
  unfold DotDims.rhsIdx
  rw [dif_neg (show ¬(1 : Fin S512x3.rank) ∈ dot_S2048x512_S512x3_S2048x3_1_0_0_1_n_n.rhsBatch by decide), dif_pos (show (1 : Fin S512x3.rank) ∈ dot_S2048x512_S512x3_S2048x3_1_0_0_1_n_n.rhsNonContracting by decide)]
  rfl

/-! ## The non-pointwise operations, each read at coordinates -/

/-- `x · cᵀ` into the zero accumulator: entry `(p, k)` is `∑_q x[p,q] · c[k,q]`. -/
theorem cross_apply (a : FVec Ideal S2048x32 .bf16) (b : FVec Ideal S512x32 .bf16)
    (ht : S512x32.Transposes [1, 0] S32x512) (p : Fin 2048) (k : Fin 512) :
    matmul dot_S2048x32_S32x512_S2048x512_1_0_0_1_n_n none a (transpose S32x512 [1, 0] b ht)
        (constant (F := Ideal) S2048x512 .f32 0x00000000#32) (ix2 p k)
      = ∑ q : Fin 32, a (ix2 p q) * b (ix2 k q) := by
  simp only [matmul]
  rw [Ideal.matmul_constant_zero_apply, ← Equiv.sum_comp (ValueIdx.contrEquiv1 dot_S2048x32_S32x512_S2048x512_1_0_0_1_n_n 32 rfl rfl).symm]
  refine Finset.sum_congr rfl fun q _ => ?_
  have hq := ValueIdx.contrEquiv1_symm_val dot_S2048x32_S32x512_S2048x512_1_0_0_1_n_n 32 rfl rfl q
  have el : dot_S2048x32_S32x512_S2048x512_1_0_0_1_n_n.lhsIdx (ix2 p k) ((ValueIdx.contrEquiv1 dot_S2048x32_S32x512_S2048x512_1_0_0_1_n_n 32 rfl rfl).symm q) = ix2 p q := funext fun a => Fin.ext (by
    match a with
    | ⟨0, _⟩ => exact cross_lhs_0 _ _
    | ⟨1, _⟩ => exact (cross_lhs_1 _ _).trans hq)
  have er : dot_S2048x32_S32x512_S2048x512_1_0_0_1_n_n.rhsIdx (ix2 p k) ((ValueIdx.contrEquiv1 dot_S2048x32_S32x512_S2048x512_1_0_0_1_n_n 32 rfl rfl).symm q) = ix2 q k := funext fun a => Fin.ext (by
    match a with
    | ⟨0, _⟩ => exact (cross_rhs_0 _ _).trans hq
    | ⟨1, _⟩ => exact cross_rhs_1 _ _)
  rw [el, er, transpose_ix2_apply]

/-- `h · wᵀ` into the zero accumulator: entry `(p, j)` is `∑_k h[p,k] · w[j,k]`. -/
theorem read_apply (h : FVec Ideal S2048x512 .bf16) (w : FVec Ideal S3x512 .bf16)
    (ht : S3x512.Transposes [1, 0] S512x3) (p : Fin 2048) (j : Fin 3) :
    matmul dot_S2048x512_S512x3_S2048x3_1_0_0_1_n_n none h (transpose S512x3 [1, 0] w ht)
        (constant (F := Ideal) S2048x3 .f32 0x00000000#32) (ix2 p j)
      = ∑ k : Fin 512, h (ix2 p k) * w (ix2 j k) := by
  simp only [matmul]
  rw [Ideal.matmul_constant_zero_apply, ← Equiv.sum_comp (ValueIdx.contrEquiv1 dot_S2048x512_S512x3_S2048x3_1_0_0_1_n_n 512 rfl rfl).symm]
  refine Finset.sum_congr rfl fun k _ => ?_
  have hk := ValueIdx.contrEquiv1_symm_val dot_S2048x512_S512x3_S2048x3_1_0_0_1_n_n 512 rfl rfl k
  have el : dot_S2048x512_S512x3_S2048x3_1_0_0_1_n_n.lhsIdx (ix2 p j) ((ValueIdx.contrEquiv1 dot_S2048x512_S512x3_S2048x3_1_0_0_1_n_n 512 rfl rfl).symm k) = ix2 p k := funext fun a => Fin.ext (by
    match a with
    | ⟨0, _⟩ => exact read_lhs_0 _ _
    | ⟨1, _⟩ => exact (read_lhs_1 _ _).trans hk)
  have er : dot_S2048x512_S512x3_S2048x3_1_0_0_1_n_n.rhsIdx (ix2 p j) ((ValueIdx.contrEquiv1 dot_S2048x512_S512x3_S2048x3_1_0_0_1_n_n 512 rfl rfl).symm k) = ix2 k j := funext fun a => Fin.ext (by
    match a with
    | ⟨0, _⟩ => exact (read_rhs_0 _ _).trans hk
    | ⟨1, _⟩ => exact read_rhs_1 _ _)
  rw [el, er, transpose_ix2_apply]

/-- A row's sum of 32 lanes from the zero word, kept as a column and broadcast along 512 columns. -/
theorem rownorm_apply (v : FVec Ideal S2048x32 .f32) (hr : S2048x32.Reduces [1] S2048) (hc : S2048.ShapeCasts S2048x1)
    (hb : S2048x1.Broadcasts S2048x512) (p : Fin 2048) (k : Fin 512) :
    broadcastTo S2048x512 (shapeCast S2048x1 (multiReduction .add [1] S2048 v 0x00000000#32 hr (.inl rfl) rfl) hc) hb (ix2 p k)
      = ∑ q : Fin 32, v (ix2 p q) := by
  rw [KeepdimsLayout.broadcastTo_a1_ab_apply, KeepdimsLayout.shapeCast_a_a1_apply]
  exact (Ideal.multiReduction_add_single v 0x00000000#32 hr (.inl rfl) rfl (ix1 p)).trans
    (Finset.sum_congr rfl fun q _ => congrArg v (funext fun a => Fin.ext (by match a with | ⟨0, _⟩ => rfl | ⟨1, _⟩ => rfl)))

/-- A centre's sum of 32 lanes from the zero word, laid as the one row `[1, 512]`. -/
theorem centrenorm_apply (v : FVec Ideal S512x32 .f32) (hr : S512x32.Reduces [1] S512) (hc : S512.ShapeCasts S1x512)
    (u : Fin 1) (k : Fin 512) :
    shapeCast S1x512 (multiReduction .add [1] S512 v 0x00000000#32 hr (.inl rfl) rfl) hc (ix2 u k)
      = ∑ q : Fin 32, v (ix2 k q) := by
  rw [shapeCast_a_1a_apply]
  exact (Ideal.multiReduction_add_single v 0x00000000#32 hr (.inl rfl) rfl (ix1 k)).trans
    (Finset.sum_congr rfl fun q _ => congrArg v (funext fun a => Fin.ext (by match a with | ⟨0, _⟩ => rfl | ⟨1, _⟩ => rfl)))

/-- The exponential is taken entry by entry. -/
theorem exp_apply {s : Shape} {φ : FTy} (v : FVec Ideal s φ) (i : s.Idx) : exp v i = Ideal.exp (v i) := rfl

/-! ## The stored value -/

/-- Entry `(p, j)` of what the body stores is the layer's output `j` for row `p` of the block. -/
theorem pay_apply (x0 : Vec Ideal S2048x32 .f32) (x1 : Vec Ideal S512x32 .f32) (x2 : Vec Ideal S1x512 .f32)
    (x3 : Vec Ideal S3x512 .f32) (x4 : Vec Ideal S1x3 .f32) (p : Fin 2048) (j : Fin 3) :
    k0_pay1 (F := Ideal) x0 x1 x2 x3 x4 (ix2 p j)
      = RbfLayer.out (fun q => x0 (ix2 p q)) (fun k q => x1 (ix2 k q)) (fun k => x2 (ix2 (0 : Fin 1) k))
          (fun k => x3 (ix2 j k)) (x4 (ix2 (0 : Fin 1) j)) := by
  unfold k0_pay1
  dsimp only
  refine (addf_apply _ _ _).trans ?_
  rw [read_apply, broadcastTo_1b_ab_apply, shapeCast_self]
  unfold RbfLayer.out
  refine congrArg (· + _) (Finset.sum_congr rfl fun k _ => congrArg (· * _) ?_)
  unfold RbfLayer.hidden RbfLayer.dist2
  simp only [truncf_apply, exp_apply, divf_apply, subf_apply, addf_apply, mulf_apply, broadcast_apply,
    broadcastTo_1b_ab_apply, Ideal.ofBits_def, RbfLayer.zero_word_sub]
  refine congrArg (fun z => Ideal.exp (Ideal.div (-z) _)) ?_
  refine congrArg₂ (· - ·) (congrArg₂ (· + ·) ?_ ?_) (congrArg (_ * ·) ?_)
  · exact rownorm_apply _ _ _ _ p k
  · exact centrenorm_apply _ _ _ 0 k
  · exact cross_apply _ _ _ p k

end Cert.KernelIdeal.RbfBody

end
-- ==== Proof.RbfBlocks.lean ====
/-
  From the grid's blocks to the whole output array.

  The grid has 64 points. Point `t` reads rows `2048·t … 2048·t + 2047` of the inputs' array `x` and all of the
  centres, widths, weights and bias (their block index is zero at every point), and writes rows
  `2048·t … 2048·t + 2047` of the output. So what point `t` writes back is block `t` of ONE function of the whole
  argument arrays — the layer `RbfLayer.layer` over all 131072 rows — and, the 64 blocks covering every row, the
  output array ends holding that function. The bias reaches the region as the row `[1, 3]` the host reshaped
  `b : [3]` into; read at `(0, j)` it is `b[j]`.
-/
import proofs.«102401_j11484742549553_1_alg».proof.Proof.Gen.KernelIdeal.Value
import proofs.«102401_j11484742549553_1_alg».proof.Proof.RbfBody
import Idealize.ShloMosaic.Lib.StableHlo.Run

set_option maxRecDepth 16384

noncomputable section

namespace Cert.KernelIdeal.RbfBlocks

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The index maps, decided over the 64 points: the input rows and the output rows move together, one block per
    point; every other window stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The bias as the region finds it: the row `[1, 3]` the host reshaped `b` into holds `b[j]` at `(0, j)`. -/
theorem bias_row (c : Dev nD) (u : Fin 1) (j : Fin 3) :
    (V m c main_v0 : S1x3.Idx → EReal) (ix2 u j) = (m ((c : Thread nD τ).loc main_arg4) : S3.Idx → EReal) (ix1 j) := by
  have e : (V m c main_v0 : S1x3.Idx → EReal)
      = shapeCast S1x3 (m ((c : Thread nD τ).loc main_arg4) : S3.Idx → EReal) shapeCasts_S3_S1x3 := by
    dsimp only [V, hostOps0]; after_results; rfl
  rw [e, shapeCast_a_1a_apply]

/-- The layer over all 131072 rows, of the arrays as the region finds them. -/
abbrev G (c : Dev nD) : S131072x3.Idx → EReal :=
  RbfLayer.layer (V m c main_arg0) (V m c main_arg1) (V m c main_arg2) (V m c main_arg3)
    (fun j => (V m c main_v0 : S1x3.Idx → EReal) (ix2 (0 : Fin 1) j))

/-- The body's stored value at any index of its block, the coordinates read off the index. -/
theorem pay_idx (x0 : Vec Ideal S2048x32 .f32) (x1 : Vec Ideal S512x32 .f32) (x2 : Vec Ideal S1x512 .f32)
    (x3 : Vec Ideal S3x512 .f32) (x4 : Vec Ideal S1x3 .f32) (y : S2048x3.Idx) :
    k0_pay1 (F := Ideal) x0 x1 x2 x3 x4 y
      = RbfLayer.out (fun q => x0 (ix2 (y 0) q)) (fun k q => x1 (ix2 k q)) (fun k => x2 (ix2 (0 : Fin 1) k))
          (fun k => x3 (ix2 (y 1) k)) (x4 (ix2 (0 : Fin 1) (y 1))) := by
  obtain ⟨p, j, rfl⟩ : ∃ (p : Fin 2048) (j : Fin 3), y = ix2 p j := ⟨y 0, y 1, eq_ix2 y⟩
  exact RbfBody.pay_apply x0 x1 x2 x3 x4 p j

/-- WHAT POINT `t` WRITES BACK is block `t` of the layer over the whole arrays. -/
theorem flushed_eq (c : Dev nD) (t : Fin cfg0.N) :
    (dats m 0 c).flushed 5 t = ((cfg0.win 5).blk t).view.read (Elt Ideal) (G m c) := by
  rw [flushed5]
  unfold out0_5
  rw [View.canon_unit_zero origin]
  simp only [View.ld_unit_zero (S := S2048x32) origin, View.ld_unit_zero (S := S512x32) origin,
    View.ld_unit_zero (S := S1x512) origin, View.ld_unit_zero (S := S3x512) origin, View.ld_unit_zero (S := S1x3) origin]
  obtain ⟨e00, e01, e10, e11, e20, e21, e30, e31, e40, e41, e50, e51⟩ := idx_facts t
  funext y
  show k0_pay1 (F := Ideal) (iblk m c 0 t) (iblk m c 1 t) (iblk m c 2 t) (iblk m c 3 t) (iblk m c 4 t) y
    = G m c (((cfg0.win 5).blk t).view.emb y)
  refine (pay_idx (iblk m c 0 t) (iblk m c 1 t) (iblk m c 2 t) (iblk m c 3 t) (iblk m c 4 t) y).trans ?_
  -- each input block, read where the output's block sits
  have h0 : ∀ q : Fin 32, iblk m c 0 t (ix2 (y 0) q)
      = V m c main_arg0 (ix2 ((((cfg0.win 5).blk t).view.emb y) 0) q) := fun q => by
    show V m c main_arg0 (((cfg0.win 0).blk t).view.emb (ix2 (y 0) q)) = _
    refine congrArg (V m c main_arg0) (funext fun a => Fin.ext ?_)
    match a with
    | ⟨0, _⟩ => show win0_0.index t (0 : Fin 2) * 2048 + 1 * (y 0).val = win0_5.index t (0 : Fin 2) * 2048 + 1 * (y 0).val; omega
    | ⟨1, _⟩ => show win0_0.index t (1 : Fin 2) * 32 + 1 * q.val = q.val; omega
  have h1 : ∀ (k : Fin 512) (q : Fin 32), iblk m c 1 t (ix2 k q) = V m c main_arg1 (ix2 k q) := fun k q => by
    show V m c main_arg1 (((cfg0.win 1).blk t).view.emb (ix2 k q)) = _
    refine congrArg (V m c main_arg1) (funext fun a => Fin.ext ?_)
    match a with
    | ⟨0, _⟩ => show win0_1.index t (0 : Fin 2) * 512 + 1 * k.val = k.val; omega
    | ⟨1, _⟩ => show win0_1.index t (1 : Fin 2) * 32 + 1 * q.val = q.val; omega
  have h2 : ∀ k : Fin 512, iblk m c 2 t (ix2 (0 : Fin 1) k) = V m c main_arg2 (ix2 (0 : Fin 1) k) := fun k => by
    show V m c main_arg2 (((cfg0.win 2).blk t).view.emb (ix2 (0 : Fin 1) k)) = _
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 512 + 1 * k.val = k.val; omega
  have h3 : ∀ k : Fin 512, iblk m c 3 t (ix2 (y 1) k)
      = V m c main_arg3 (ix2 ((((cfg0.win 5).blk t).view.emb y) 1) k) := fun k => by
    show V m c main_arg3 (((cfg0.win 3).blk t).view.emb (ix2 (y 1) k)) = _
    refine congrArg (V m c main_arg3) (funext fun a => Fin.ext ?_)
    match a with
    | ⟨0, _⟩ => show win0_3.index t (0 : Fin 2) * 3 + 1 * (y 1).val = win0_5.index t (1 : Fin 2) * 3 + 1 * (y 1).val; omega
    | ⟨1, _⟩ => show win0_3.index t (1 : Fin 2) * 512 + 1 * k.val = k.val; omega
  have h4 : iblk m c 4 t (ix2 (0 : Fin 1) (y 1))
      = (V m c main_v0 : S1x3.Idx → EReal) (ix2 (0 : Fin 1) ((((cfg0.win 5).blk t).view.emb y) 1)) := by
    show V m c main_v0 (((cfg0.win 4).blk t).view.emb (ix2 (0 : Fin 1) (y 1))) = _
    refine congrArg (V m c main_v0) (funext fun a => Fin.ext ?_)
    match a with
    | ⟨0, _⟩ => show win0_4.index t (0 : Fin 2) * 1 + 1 * 0 = 0; omega
    | ⟨1, _⟩ => show win0_4.index t (1 : Fin 2) * 3 + 1 * (y 1).val = win0_5.index t (1 : Fin 2) * 3 + 1 * (y 1).val; omega
  show _ = RbfLayer.out (fun q => V m c main_arg0 (ix2 ((((cfg0.win 5).blk t).view.emb y) 0) q))
    (fun k q => V m c main_arg1 (ix2 k q)) (fun k => V m c main_arg2 (ix2 (0 : Fin 1) k))
    (fun k => V m c main_arg3 (ix2 ((((cfg0.win 5).blk t).view.emb y) 1) k))
    ((V m c main_v0 : S1x3.Idx → EReal) (ix2 (0 : Fin 1) ((((cfg0.win 5).blk t).view.emb y) 1)))
  rw [funext h0, funext fun k => funext (h1 k), funext h2, funext h3, h4]

/-- An index of the output array is in point `t`'s block iff each coordinate is in the block's range. -/
theorem mem_blk (t : Fin cfg0.N) (i : S131072x3.Idx) :
    i ∈ ((cfg0.win 5).blk t).view.set ↔ ∀ a : Fin 2, win0_5.index t a * S2048x3.size a ≤ (i a).val
      ∧ (i a).val < win0_5.index t a * S2048x3.size a + S2048x3.size a := by
  show i ∈ ((View.whole main_v1).slice (win0_5.rect t)).set ↔ _
  rw [View.set_slice_whole, Rect.mem_set_unit]
  exact Iff.rfl

/-- The 64 blocks cover the output: row `r` is in the block of point `r / 2048`. -/
theorem cover (i : S131072x3.Idx) :
    ∃ t : Fin cfg0.N, (cfg0.win 5).flush t = true ∧ i ∈ ((cfg0.win 5).blk t).view.set := by
  have hi0 : (i 0).val < 131072 := (i 0).isLt
  have hi1 : (i 1).val < 3 := (i 1).isLt
  have ht : (i 0).val / 2048 < 64 := by omega
  refine ⟨⟨(i 0).val / 2048, ht⟩, flush0_5 _, ?_⟩
  rw [mem_blk]
  obtain ⟨-, -, -, -, -, -, -, -, -, -, e50, e51⟩ := idx_facts ⟨(i 0).val / 2048, ht⟩
  have e50' : win0_5.index ⟨(i 0).val / 2048, ht⟩ (0 : Fin 2) = (i 0).val / 2048 := e50
  intro a
  match a with
  | ⟨0, _⟩ =>
    show win0_5.index ⟨(i 0).val / 2048, ht⟩ (0 : Fin 2) * 2048 ≤ (i 0).val
      ∧ (i 0).val < win0_5.index ⟨(i 0).val / 2048, ht⟩ (0 : Fin 2) * 2048 + 2048
    omega
  | ⟨1, _⟩ =>
    show win0_5.index ⟨(i 0).val / 2048, ht⟩ (1 : Fin 2) * 3 ≤ (i 1).val
      ∧ (i 1).val < win0_5.index ⟨(i 0).val / 2048, ht⟩ (1 : Fin 2) * 3 + 3
    omega

/-- THE OUTPUT ARRAY after the run is the layer over the whole arrays as the region finds them. -/
theorem final (c : Dev nD) : (dats m 0 c).arrAt 5 cfg0.N = G m c :=
  (dats m 0 c).arrAt_eq_of_cover 5 (G m c) (fun t _ => flushed_eq m c t) cover

/-- … which are the arguments as launched, the bias read through the host's reshape. -/
theorem G_eq (c : Dev nD) : G m c = RbfLayer.layer (m ((c : Thread nD τ).loc main_arg0)) (m ((c : Thread nD τ).loc main_arg1))
    (m ((c : Thread nD τ).loc main_arg2)) (m ((c : Thread nD τ).loc main_arg3))
    (fun j => (m ((c : Thread nD τ).loc main_arg4) : S3.Idx → EReal) (ix1 j)) := by
  unfold G
  rw [V_main_arg0, V_main_arg1, V_main_arg2, V_main_arg3, funext fun j => bias_row m c (0 : Fin 1) j]

/-- The kernel's run with its result named: every weakly fair execution ends with the output array at the layer
    of the argument arrays, and the arguments unchanged. -/
theorem run : θ_run defs (onTc (τ := τ) (main (F := Ideal))) ⟨m, fun _ => 0, ρ⟩ fun r => ∀ c : Dev nD,
      r.2.mem ((c : Thread nD τ).loc main_v1) = RbfLayer.layer (m ((c : Thread nD τ).loc main_arg0))
          (m ((c : Thread nD τ).loc main_arg1)) (m ((c : Thread nD τ).loc main_arg2)) (m ((c : Thread nD τ).loc main_arg3))
          (fun j => (m ((c : Thread nD τ).loc main_arg4) : S3.Idx → EReal) (ix1 j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (G_eq m c)), (h c).2⟩) (run_blocks m ρ)

end Cert.KernelIdeal.RbfBlocks

end
-- ==== Proof.RbfRef.lean ====
/-
  The reference computes the same layer.

  Read one operation at a time, the reference's result at row `n`, column `j` is
  `∑_k exp(-((∑_q x[n,q]² + ∑_q c[k,q]²) - 2·∑_q x[n,q]·c[k,q]) / (s[0,k]·s[0,k])) · W[j,k] + b[j]`:
  its two norms are host sums started from the zero word, kept as a column and as a row and broadcast over
  the `[131072, 512]` array; the cross term and the read-out are matrix products against transposes; the bias is
  broadcast along the rows. That is `RbfLayer.layer` of the arguments, index by index.
-/
import proofs.«102401_j11484742549553_1_alg».proof.Proof.Gen.ReferenceIdeal.Read
import proofs.«102401_j11484742549553_1_alg».proof.Proof.RbfSpec

noncomputable section

namespace Cert.ReferenceIdeal.RbfRef

open Cert.ReferenceIdeal Cert.ReferenceIdeal.Gen Cert.ReferenceIdeal.Read Idealize.ShloMosaic Idealize.ShloMosaic.ValueIdx

/-! ## The composed index functions, at coordinates -/

theorem i1 (n : Fin 131072) (q : Fin 32) : idx_main_v1 (ix1 n) q = ix2 n q :=
  funext fun a => Fin.ext (by match a with | ⟨0, _⟩ => rfl | ⟨1, _⟩ => rfl)
theorem i2 (n : Fin 131072) (u : Fin 1) : idx_main_v2 (ix2 n u) = ix1 n :=
  funext fun a => Fin.ext (by match a with | ⟨0, _⟩ => rfl)
theorem i4 (k : Fin 512) (q : Fin 32) : idx_main_v4 (ix1 k) q = ix2 k q :=
  funext fun a => Fin.ext (by match a with | ⟨0, _⟩ => rfl | ⟨1, _⟩ => rfl)
theorem i5 (u : Fin 1) (k : Fin 512) : idx_main_v5 (ix2 u k) = ix1 k :=
  funext fun a => Fin.ext (by match a with | ⟨0, _⟩ => rfl)
theorem i6 (q : Fin 32) (k : Fin 512) : idx_main_v6 (ix2 q k) = ix2 k q :=
  funext fun a => Fin.ext (by match a with | ⟨0, _⟩ => rfl | ⟨1, _⟩ => rfl)
theorem l7 (n : Fin 131072) (k : Fin 512) (q : Fin 32) : lidx_main_v7 (ix2 n k) q = ix2 n q :=
  funext fun a => Fin.ext (by match a with | ⟨0, _⟩ => rfl | ⟨1, _⟩ => rfl)
theorem r7 (n : Fin 131072) (k : Fin 512) (q : Fin 32) : ridx_main_v7 (ix2 n k) q = ix2 q k :=
  funext fun a => Fin.ext (by match a with | ⟨0, _⟩ => rfl | ⟨1, _⟩ => rfl)
theorem i8 (n : Fin 131072) (k : Fin 512) : idx_main_v8 (ix2 n k) = ix2 n (0 : Fin 1) :=
  funext fun a => Fin.ext (by match a with | ⟨0, _⟩ => rfl | ⟨1, _⟩ => rfl)
theorem i9 (n : Fin 131072) (k : Fin 512) : idx_main_v9 (ix2 n k) = ix2 (0 : Fin 1) k :=
  funext fun a => Fin.ext (by match a with | ⟨0, _⟩ => rfl | ⟨1, _⟩ => rfl)
theorem i16 (n : Fin 131072) (k : Fin 512) : idx_main_v16 (ix2 n k) = ix2 (0 : Fin 1) k :=
  funext fun a => Fin.ext (by match a with | ⟨0, _⟩ => rfl | ⟨1, _⟩ => rfl)
theorem i19 (k : Fin 512) (j : Fin 3) : idx_main_v19 (ix2 k j) = ix2 j k :=
  funext fun a => Fin.ext (by match a with | ⟨0, _⟩ => rfl | ⟨1, _⟩ => rfl)
theorem l20 (n : Fin 131072) (j : Fin 3) (k : Fin 512) : lidx_main_v20 (ix2 n j) k = ix2 n k :=
  funext fun a => Fin.ext (by match a with | ⟨0, _⟩ => rfl | ⟨1, _⟩ => rfl)
theorem r20 (n : Fin 131072) (j : Fin 3) (k : Fin 512) : ridx_main_v20 (ix2 n j) k = ix2 k j :=
  funext fun a => Fin.ext (by match a with | ⟨0, _⟩ => rfl | ⟨1, _⟩ => rfl)
theorem i21 (u : Fin 1) (j : Fin 3) : idx_main_v21 (ix2 u j) = ix1 j :=
  funext fun a => Fin.ext (by match a with | ⟨0, _⟩ => rfl)
theorem i22 (n : Fin 131072) (j : Fin 3) : idx_main_v22 (ix2 n j) = ix2 (0 : Fin 1) j :=
  funext fun a => Fin.ext (by match a with | ⟨0, _⟩ => rfl | ⟨1, _⟩ => rfl)

/-! ## The reference's result is the layer -/

theorem ref_eq_layer (x0 : S131072x32.Idx → EReal) (x1 : S512x32.Idx → EReal) (x2 : S1x512.Idx → EReal)
    (x3 : S3x512.Idx → EReal) (x4 : S3.Idx → EReal) :
    val_main_v23 (F := Ideal) x0 x1 x2 x3 x4 = RbfLayer.layer x0 x1 x2 x3 (fun j => x4 (ix1 j)) := by
  funext i
  obtain ⟨n, j, rfl⟩ : ∃ (n : Fin 131072) (j : Fin 3), i = ix2 n j := ⟨i 0, i 1, eq_ix2 i⟩
  rw [RbfLayer.layer_ix2]
  unfold RbfLayer.out RbfLayer.hidden RbfLayer.dist2
  simp only [val_main_v23_apply, val_main_v20_apply, val_main_v22_apply, val_main_v21_apply, val_main_v19_apply,
    val_main_v18_apply, val_main_v17_apply, val_main_v16_apply, val_main_v15_apply, val_main_v14_apply,
    val_main_v13_apply, val_main_v12_apply, val_main_v11_apply, val_main_cst_1_apply, val_main_v10_apply,
    val_main_v9_apply, val_main_v8_apply, val_main_v7_apply, val_main_v6_apply, val_main_v5_apply,
    val_main_v4_apply, val_main_v3_apply, val_main_cst_0_apply, val_main_v2_apply, val_main_v1_apply,
    val_main_v0_apply, val_main_cst_apply,
    l20, r20, i19, i16, i9, i8, l7, r7, i6, i5, i4, i2, i1, i22, i21]
  simp only [Ideal.addf_def, Ideal.subf_def, Ideal.mulf_def, Ideal.hostDivf_def, Ideal.hostUnary_exp_def,
    Ideal.hostNegf_def, Ideal.negf_def, Ideal.ofBits_def, RbfLayer.zero_word_add]

end Cert.ReferenceIdeal.RbfRef

end
-- ==== Proof.lean ====
/- A radial-basis-function layer with a linear read-out: the Pallas kernel against its jnp reference.

   Both programs compute, for each of 131072 input rows `x_n ∈ ℝ³²`, 512 centres `c_k`, widths `σ_k`, read-out
   weights `W ∈ ℝ^{3×512}` and bias `b ∈ ℝ³`,
       out[n, j] = ∑_k exp(-((|x_n|² + |c_k|²) - 2·⟨x_n, c_k⟩) / σ_k²) · W[j, k] + b[j],
   the squared distance in its expanded form. The kernel tiles the rows in 64 blocks of 2048 and keeps the
   centres, widths, weights and bias resident; it casts to bf16 before its two matrix products (the identity at the
   ideal values) and writes the negation as a subtraction from zero (`0 - a = -a` on the extended reals, infinities
   included). The reference does the same on whole arrays. Operation by operation the two are ONE function of the
   arguments (`RbfLayer.layer`), so no law that needs finiteness is used and the precondition is never opened.

   * the kernel's stored value at an index of a block: Proof/RbfBody.lean;
   * the 64 blocks cover the output, so the kernel's result array is the layer of the arguments: Proof/RbfBlocks.lean;
   * the reference's result, read one operation at a time, is the same layer: Proof/RbfRef.lean;
   * the three frames are the generated runs; the idealization rewrote nothing, so `preserves` is `True`. -/
import proofs.«102401_j11484742549553_1_alg».proof.Defs
import proofs.«102401_j11484742549553_1_alg».proof.Proof.Gen.Kernel
import proofs.«102401_j11484742549553_1_alg».proof.Proof.Gen.Kernel.Skeleton
import proofs.«102401_j11484742549553_1_alg».proof.Proof.Gen.Kernel.Launch
import proofs.«102401_j11484742549553_1_alg».proof.Proof.Gen.Kernel.Points
import proofs.«102401_j11484742549553_1_alg».proof.Proof.Gen.Kernel.Frame
import proofs.«102401_j11484742549553_1_alg».proof.Proof.Gen.KernelIdeal
import proofs.«102401_j11484742549553_1_alg».proof.Proof.Gen.KernelIdeal.Skeleton
import proofs.«102401_j11484742549553_1_alg».proof.Proof.Gen.KernelIdeal.Launch
import proofs.«102401_j11484742549553_1_alg».proof.Proof.Gen.KernelIdeal.Points
import proofs.«102401_j11484742549553_1_alg».proof.Proof.Gen.KernelIdeal.Frame
import proofs.«102401_j11484742549553_1_alg».proof.Proof.Gen.ReferenceIdeal
import proofs.«102401_j11484742549553_1_alg».proof.Proof.Gen.Pre_finite_inputs
import proofs.«102401_j11484742549553_1_alg».proof.Proof.Gen.KernelIdeal.Value
import proofs.«102401_j11484742549553_1_alg».proof.Proof.Gen.ReferenceIdeal.Run
import proofs.«102401_j11484742549553_1_alg».proof.Proof.Gen.ReferenceIdeal.Read
import proofs.«102401_j11484742549553_1_alg».proof.Proof.RbfBlocks
import proofs.«102401_j11484742549553_1_alg».proof.Proof.RbfRef
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's output array and the reference's result are both the
    layer `RbfLayer.layer` of those arguments. -/
theorem algebraic : Cert.algebraic_KernelIdeal_ReferenceIdeal := by
  intro m ρ m' ρ' _ hagree
  refine ⟨_, Cert.KernelIdeal.RbfBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v23_eq _ _ _ _ _).trans (Cert.ReferenceIdeal.RbfRef.ref_eq_layer _ _ _ _ _)

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
